-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1000x256 : Shape := ⟨2, ![1000, 256]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S16384x256 .f32) (main_arg1 : FVec F S1000x256 .f32) (main_arg2 : IVec S16384 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1000x256 .f32 := Host.absf main_arg1
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  main_v8
-- ==== Kernel.lean ====
abbrev S16384x256 : Shape := ⟨2, ![16384, 256]⟩
abbrev S1000x256 : Shape := ⟨2, ![1000, 256]⟩
abbrev S16384 : Shape := ⟨1, ![16384]⟩
abbrev S_ : Shape := ⟨0, ![]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S16384x1 : Shape := ⟨2, ![16384, 1]⟩
abbrev S1x1 : Shape := ⟨2, ![1, 1]⟩
abbrev S512x256 : Shape := ⟨2, ![512, 256]⟩
abbrev S512x1 : Shape := ⟨2, ![512, 1]⟩
abbrev S512x1024 : Shape := ⟨2, ![512, 1024]⟩
abbrev S512 : Shape := ⟨1, ![512]⟩
abbrev S1 : Shape := ⟨1, ![1]⟩

abbrev nBuf : Space → Nat
  | .hbm => 17
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S1000x256, .f32⟩
  | .hbm, ⟨2, _⟩ => ⟨S16384, .i32⟩
  | .hbm, ⟨3, _⟩ => ⟨S_, .i32⟩
  | .hbm, ⟨4, _⟩ => ⟨S_, .f32⟩
  | .hbm, ⟨5, _⟩ => ⟨S1024x256, .f32⟩
  | .hbm, ⟨6, _⟩ => ⟨S1024x256, .bf16⟩
  | .hbm, ⟨7, _⟩ => ⟨S256x1024, .bf16⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1, .i32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S1x1024, .f32⟩
  | .local _ .vmem, ⟨4, _⟩ => ⟨S512x1, .i32⟩
  | .local _ .vmem, ⟨5, _⟩ => ⟨S512x1, .i32⟩
  | .local _ .vmem, ⟨6, _⟩ => ⟨S1x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  pads_S1000x256_S1024x256_0240_000 : S1000x256.Pads (![0, 0] : Fin 2 → Nat) ![24, 0] ![0, 0] S1024x256
  h_S_ : 0 < S_.numel
  bitsLt_bf16_f32 : FTy.bits .bf16 < FTy.bits .f32
  transposes_S1024x256_S256x1024_1_0 : S1024x256.Transposes [1, 0] S256x1024
  reducesTo_S1024x256_S1024_d1 : S1024x256.ReducesTo [1] S1024
  shapeCasts_S1024_S1x1024 : S1024.ShapeCasts S1x1024
  shapeCasts_S16384_S16384x1 : S16384.ShapeCasts S16384x1
  inb_S1x1_S1x1_0_0 : ∀ a, (![0, 0] : Fin 2 → Nat) a + S1x1.size a ≤ S1x1.size a
  h_S1x1 : 0 < S1x1.numel
  inb_S512x256_S512x256_0_0 : ∀ a, (![0, 0] : Fin 2 → Nat) a + S512x256.size a ≤ S512x256.size a
  h_S512x256 : 0 < S512x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S512x256_S512 : S512x256.Reduces [1] S512
  shapeCasts_S512_S512x1 : S512.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  iota_S512x1024_d1_w32 : S512x1024.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x1024_S512 : S512x1024.Reduces [1] S512
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .i32 = 32 ∨ (Rect.block (s := S16384x1) S512x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x256 : Shape := ⟨2, ![16384, 256]⟩
abbrev S1000x256 : Shape := ⟨2, ![1000, 256]⟩
abbrev S16384 : Shape := ⟨1, ![16384]⟩
abbrev S_ : Shape := ⟨0, ![]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩

abbrev nBuf : Space → Nat
  | .hbm => 42
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1000x256, .f32⟩
  | .hbm, ⟨2, _⟩ => ⟨S16384, .i32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x256, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S16384x1, .i32⟩
  | .hbm, ⟨20, _⟩ => ⟨S1000, .i32⟩
  | .hbm, ⟨21, _⟩ => ⟨S1x1000, .i32⟩
  | .hbm, ⟨22, _⟩ => ⟨S16384x1000, .i32⟩
  | .hbm, ⟨23, _⟩ => ⟨S16384x1000, .i32⟩
  | .hbm, ⟨24, _⟩ => ⟨S16384x1000, .i1⟩
  | .hbm, ⟨25, _⟩ => ⟨S16384x1000, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384x1000, .f32⟩
  | .hbm, ⟨30, _⟩ => ⟨S16384x1000, .f32⟩
  | .hbm, ⟨31, _⟩ => ⟨S_, .f32⟩
  | .hbm, ⟨32, _⟩ => ⟨S16384x1000, .f32⟩
  | .hbm, ⟨33, _⟩ => ⟨S16384x1000, .f32⟩
  | .hbm, ⟨34, _⟩ => ⟨S_, .f32⟩
  | .hbm, ⟨35, _⟩ => ⟨S_, .f32⟩
  | .hbm, ⟨36, _⟩ => ⟨S16384x1000, .f32⟩
  | .hbm, ⟨37, _⟩ => ⟨S16384x1000, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1000x256_S1000_d1 : S1000x256.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  reducesTo_S16384x1000_S_d0_1 : S16384x1000.ReducesTo [0, 1] S_
  dot_S16384x256_S1000x256_S16384x1000_1_1_0_0_n_n_wf : DotDims.WF S16384x256 S1000x256 S16384x1000 [1] [1] [0] [0] [] []

variable [Facts₀]

def dot_S16384x256_S1000x256_S16384x1000_1_1_0_0_n_n : DotDims S16384x256 S1000x256 S16384x1000 where
  lhsContracting := [1]
  rhsContracting := [1]
  lhsNonContracting := [0]
  rhsNonContracting := [0]
  lhsBatch := []
  rhsBatch := []
  wf := dot_S16384x256_S1000x256_S16384x1000_1_1_0_0_n_n_wf

class Facts : Prop extends Facts₀ where

variable [Facts]
-- ==== Proof.Acc.lean ====
/-
  What the kernel's one-entry output block holds after each grid point.

  Every grid point computes, from its four input blocks, a column of 512 row sums (`k0_pay3`), adds the column's total
  to the block's current entry and stores it back (`k0_pay1`).  The first point first stores a zero and reads it back,
  so it adds its total to zero; every later point adds its total to what the point before left.  The contents after
  point `n` are therefore the recursion `running`, proved by induction on the point.
-/
import proofs.«160327_j41197326303940_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A point that is not the first leaves, in the output block holding `xo`, `xo` plus the total of the point's column of
    row sums: its one store covers the block, and each load reads a whole buffer. -/
theorem out_B (c : Dev nD) (i : grid0.Coords) (a1 : Memref sig .tc .vmem S512x256 .f32) (h1 : a1.IsWhole)
    (a2 : Memref sig .tc .vmem S256x1024 .bf16) (h2 : a2.IsWhole) (a3 : Memref sig .tc .vmem S1x1024 .f32) (h3 : a3.IsWhole)
    (a4 : Memref sig .tc .vmem S512x1 .i32) (h4 : a4.IsWhole) (a5 : Memref sig .tc .vmem S1x1 .f32) (h5 : a5.IsWhole)
    (hc : ¬cond0_0 i) (x0 : Vec F S512x256 .f32) (x1 : Vec F S256x1024 .bf16) (x2 : Vec F S1x1024 .f32)
    (x3 : Vec F S512x1 .i32) (xo : Vec F S1x1 .f32) :
    out0_B_4 c i a1 h1 a2 h2 a3 h3 a4 h4 a5 h5 hc x0 x1 x2 x3 xo = k0_pay1 (k0_pay3 x0 x1 x2 x3) xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S512x256) hz, View.ld_unit_zero (S := S256x1024) hz, View.ld_unit_zero (S := S1x1024) hz,
    View.ld_unit_zero (S := S512x1) hz, View.ld_unit_zero (S := S1x1) hz]

/-- The first point stores the zero block, reads it back, and leaves zero plus the total of its column of row sums:
    the later store covers the block, and the read-back sees the earlier store. -/
theorem out_A (c : Dev nD) (i : grid0.Coords) (a1 : Memref sig .tc .vmem S512x256 .f32) (h1 : a1.IsWhole)
    (a2 : Memref sig .tc .vmem S256x1024 .bf16) (h2 : a2.IsWhole) (a3 : Memref sig .tc .vmem S1x1024 .f32) (h3 : a3.IsWhole)
    (a4 : Memref sig .tc .vmem S512x1 .i32) (h4 : a4.IsWhole) (a5 : Memref sig .tc .vmem S1x1 .f32) (h5 : a5.IsWhole)
    (hc : cond0_0 i) (x0 : Vec F S512x256 .f32) (x1 : Vec F S256x1024 .bf16) (x2 : Vec F S1x1024 .f32)
    (x3 : Vec F S512x1 .i32) :
    out0_A_4 c i a1 h1 a2 h2 a3 h3 a4 h4 a5 h5 hc x0 x1 x2 x3 = k0_pay1 (k0_pay3 x0 x1 x2 x3) (k0_pay2 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S512x256) hz, View.ld_unit_zero (S := S256x1024) hz, View.ld_unit_zero (S := S1x1024) hz,
    View.ld_unit_zero (S := S512x1) hz, View.ld_unit_zero (S := S1x1) hz]

variable (m : (ℓ : Loc nD τ sig) → Buf (Elt F) ℓ)

/-- The column of 512 row sums grid point `t` computes from its four input blocks. -/
abbrev column (c : Dev nD) (t : Fin cfg0.N) : FVec F S512x1 .f32 :=
  k0_pay3 (iblk m c 0 t) (iblk m c 1 t) (iblk m c 2 t) (iblk m c 3 t)

/-- The output block's contents after point `n`: zero plus the first column's total, then each later column's total
    added in point order. -/
def running (c : Dev nD) : (n : ℕ) → n < cfg0.N → Vec F S1x1 .f32
  | 0, h => k0_pay1 (column m c ⟨0, h⟩) (k0_pay2 (F := F))
  | n + 1, h => k0_pay1 (column m c ⟨n + 1, h⟩) (running c n (Nat.lt_of_succ_lt h))

/-- The contents the frame run records after point `n` are that recursion: by induction on the point. -/
theorem outsAt_eq (c : Dev nD) : ∀ (n : ℕ) (h : n < cfg0.N), outsAt0 m c n h = running m c n h
  | 0, h => (outsAt0_A m c ⟨0, h⟩ rfl).trans (out_A c _ _ _ _ _ _ _ _ _ _ _ _ _ _ _ _)
  | n + 1, h => by
    have hN : cfg0.N = 32 := N_0
    have hB : ¬(⟨n + 1, h⟩ : Fin cfg0.N).val % 32 = 0 := by dsimp only; omega
    rw [outsAt0_B m c ⟨n + 1, h⟩ hB, out_B]
    show k0_pay1 _ (outsAt0 m c n _) = k0_pay1 _ (running m c n _)
    rw [outsAt_eq c n]

end Cert.KernelIdeal.Acc

end
-- ==== Proof.LibColumn.lean ====
/-
  Two layout facts about a column kept after a row reduction:
  a vector of `a` numbers seen as an `a × 1` column reads, at `(i, 0)`, the vector at `i`; and an `a × 1` column
  repeated across `b` columns reads, at `(p, c)`, the column's entry in row `p`.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Blocks.lean ====
/-
  The four input blocks of a grid point, read at an index in terms of the program's three arguments.

  Point `t` sees rows `512·t … 512·t + 511` of the samples and of the labels, and the whole of two arrays the host
  prepares before the launch: the centers padded with 24 zero rows, changed in float format (the identity over the extended
  reals) and transposed; and the padded centers' squared row norms.  At a class column below 1000 the padding is not
  seen: the transposed array holds the center's entries and the norm array the sum of their squares.
-/
import proofs.«160327_j41197326303940_1_alg».proof.Proof.Gen.KernelIdeal.Frame.Runs
import proofs.«160327_j41197326303940_1_alg».proof.Proof.LibColumn
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The samples, the class centers and the labels, as launched. -/
abbrev X (c : Dev nD) : (⟨2, ![16384, 256]⟩ : Shape).Idx → EReal := m ((c : Thread nD τ).loc main_arg0)
abbrev Cn (c : Dev nD) : (⟨2, ![1000, 256]⟩ : Shape).Idx → EReal := m ((c : Thread nD τ).loc main_arg1)
abbrev Lb (c : Dev nD) : (⟨1, ![16384]⟩ : Shape).Idx → BitVec 32 := m ((c : Thread nD τ).loc main_arg2)

/-- The four input blocks of point `t`, at their literal shapes. -/
abbrev xblk (c : Dev nD) (t : Fin cfg0.N) : FVec Ideal S512x256 .f32 := iblk m c 0 t
abbrev cblk (c : Dev nD) (t : Fin cfg0.N) : FVec Ideal S256x1024 .bf16 := iblk m c 1 t
abbrev nblk (c : Dev nD) (t : Fin cfg0.N) : FVec Ideal S1x1024 .f32 := iblk m c 2 t
abbrev lblk (c : Dev nD) (t : Fin cfg0.N) : IVec S512x1 32 := iblk m c 3 t

theorem lt32 (t : Fin cfg0.N) : t.val < 32 := lt_of_lt_of_eq t.isLt N_0

/-- Row `r` of tile `t` is sample row `512·t + r`. -/
def rowOf (t : ℕ) (ht : t < 32) (r : Fin 512) : Fin 16384 := ⟨512 * t + r.val, by have := r.isLt; omega⟩

/-- The windows' block indices, decided once over the grid: the sample and label windows move with the point, the
    other two stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0)

/-! ## The arrays the host prepares -/

/-- The centers padded with 24 zero rows. -/
abbrev padded (c : Dev nD) : FVec Ideal S1024x256 .f32 :=
  pad S1024x256 ![0, 0] ![24, 0] ![0, 0] (Cn m c) (sitofp (F := Ideal) .f32 (constantI S_ 32 0#32))
    Facts₀.pads_S1000x256_S1024x256_0240_000 Facts₀.h_S_

theorem V_v2 (c : Dev nD) : (V m c main_v2 : S256x1024.Idx → EReal)
    = transpose S256x1024 [1, 0] (truncf .bf16 (padded m c) Facts₀.bitsLt_bf16_f32) Facts₀.transposes_S1024x256_S256x1024_1_0 := by
  dsimp only [V, V0]
  simp only [hostOps0, hostOps0_1, hostOps0_2, List.flatten_cons, List.flatten_nil, List.append_nil, List.cons_append,
    List.nil_append]
  after_results
  rfl

theorem V_v5 (c : Dev nD) : (V m c main_v5 : S1x1024.Idx → EReal)
    = shapeCast S1x1024 (Host.reduceAdd (F := Ideal) (mulf (padded m c) (padded m c)) (constant (F := Ideal) S_ .f32 0x00000000#32)
        Facts₀.reducesTo_S1024x256_S1024_d1 Facts₀.h_S_) Facts₀.shapeCasts_S1024_S1x1024 := by
  dsimp only [V, V0]
  simp only [hostOps0, hostOps0_1, hostOps0_2, List.flatten_cons, List.flatten_nil, List.append_nil, List.cons_append,
    List.nil_append]
  after_results
  rfl

theorem V_v6 (c : Dev nD) : (V m c main_v6 : S16384x1.Idx → BitVec 32)
    = shapeCast S16384x1 (Lb m c) Facts₀.shapeCasts_S16384_S16384x1 := by
  dsimp only [V, V0]
  simp only [hostOps0, hostOps0_1, hostOps0_2, List.flatten_cons, List.flatten_nil, List.append_nil, List.cons_append,
    List.nil_append]
  after_results
  rfl

/-- Below row 1000 the padded array is the centers. -/
theorem padded_apply (c : Dev nD) (cc : Fin 1000) (k : Fin 256) :
    padded m c (ix2 (⟨cc.val, by have := cc.isLt; omega⟩ : Fin 1024) k) = Cn m c (ix2 cc k) :=
  pad_apply_of_inside _ _ _ _ _ Facts₀.pads_S1000x256_S1024x256_0240_000 Facts₀.h_S_ _ (ix2 cc k) fun a => by
    match a with
    | ⟨0, _⟩ => show cc.val = 0 + cc.val * (0 + 1); omega
    | ⟨1, _⟩ => show k.val = 0 + k.val * (0 + 1); omega

end Cert.KernelIdeal.Blocks

end
-- ==== Proof.Spec.lean ====
/-
  The mathematics of the mean clipped distance to the non-matching class centers, over the extended reals.

  For a sample row `b` and a class `c` the squared distance is expanded as `‖x_b‖² + ‖c_c‖² − 2·⟨x_b, c_c⟩`, its
  square root is clipped into `[lo, hi]`, the entry of the sample's own class is replaced by zero, and all entries are
  summed.  Three facts are proved here, none of which needs the inputs to be finite:

  * clamping the squared distance at zero before the square root changes nothing once the result is clipped from below
    by a nonnegative `lo`: where the squared distance is negative (or `⊥`) the square root is `⊥` on one side and `0`
    on the other, and both are lifted to `lo`;
  * a sum over 1024 columns whose last 24 terms vanish is the sum over the first 1000;
  * a sum over 32 tiles of 512 rows each is the sum over all 16384 rows, row `512·t + r` being row `r` of tile `t`.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.CenterDist

open Idealize.ShloMosaic Idealize.ShloMosaic.ValueIdx

/-- The lower clip bound (the single-precision number nearest to 1e-8). -/
abbrev lo : EReal := Ideal.ofBits .f32 0x322BCC77#32
/-- The upper clip bound, 1e8. -/
abbrev hi : EReal := Ideal.ofBits .f32 0x4CBEBC20#32
/-- The factor 2 of the cross term. -/
abbrev two : EReal := Ideal.ofBits .f32 0x40000000#32

/-- The expanded squared distance between sample row `b` and class center `c`. -/
def dist2 (X : (⟨2, ![16384, 256]⟩ : Shape).Idx → EReal) (C : (⟨2, ![1000, 256]⟩ : Shape).Idx → EReal)
    (b : Fin 16384) (c : Fin 1000) : EReal :=
  ((∑ k : Fin 256, X (ix2 b k) * X (ix2 b k)) + ∑ k : Fin 256, C (ix2 c k) * C (ix2 c k))
    - two * ∑ k : Fin 256, X (ix2 b k) * C (ix2 c k)

/-- The square root clipped into `[lo, hi]`. -/
def clipSqrt (d : EReal) : EReal := min hi (max lo (Ideal.sqrt d))

/-- One entry of the masked distance matrix: zero at the sample's own class, the clipped distance elsewhere. -/
def entry (X : (⟨2, ![16384, 256]⟩ : Shape).Idx → EReal) (C : (⟨2, ![1000, 256]⟩ : Shape).Idx → EReal)
    (lab : (⟨1, ![16384]⟩ : Shape).Idx → BitVec 32) (b : Fin 16384) (c : Fin 1000) : EReal :=
  Scalar.select (IntOp.cmpi .eq (lab (ix1 b)) (BitVec.ofNat 32 c.val)) 0 (clipSqrt (dist2 X C b c))

/-- The sum of one sample row's entries over the 1000 classes. -/
def rowSum (X : (⟨2, ![16384, 256]⟩ : Shape).Idx → EReal) (C : (⟨2, ![1000, 256]⟩ : Shape).Idx → EReal)
    (lab : (⟨1, ![16384]⟩ : Shape).Idx → BitVec 32) (b : Fin 16384) : EReal :=
  ∑ c : Fin 1000, entry X C lab b c

/-- The sum of all entries. -/
def total (X : (⟨2, ![16384, 256]⟩ : Shape).Idx → EReal) (C : (⟨2, ![1000, 256]⟩ : Shape).Idx → EReal)
    (lab : (⟨1, ![16384]⟩ : Shape).Idx → BitVec 32) : EReal :=
  ∑ b : Fin 16384, rowSum X C lab b

/-! ## The square root of a clamped argument, clipped from below -/

theorem sqrt_bot : Ideal.sqrt ⊥ = ⊥ := rfl
theorem sqrt_coe (r : ℝ) : Ideal.sqrt (r : EReal) = if r < 0 then ⊥ else ((Real.sqrt r : ℝ) : EReal) := rfl

/-- The lower clip bound is a positive number, in particular nonnegative. -/
theorem lo_nonneg : (0 : EReal) ≤ lo := by
  unfold lo
  simp [Ideal.ofBits, Ideal.ieee]
  first
    | exact mul_nonneg (by exact_mod_cast (by norm_num : (0 : ℝ) ≤ 11258999)) (by exact_mod_cast (by positivity : (0 : ℝ) ≤ (2 ^ 50)⁻¹))
    | exact_mod_cast (by positivity : (0 : ℝ) ≤ 11258999 * (2 ^ 50)⁻¹)

/-- Clamping at zero before the square root is invisible after clipping from below by `lo ≥ 0`. -/
theorem max_sqrt_max_zero (d : EReal) : max lo (Ideal.sqrt (max d 0)) = max lo (Ideal.sqrt d) := by
  have h0 : max lo (Ideal.sqrt 0) = lo := by
    have : Ideal.sqrt (0 : EReal) = 0 := by
      show Ideal.sqrt ((0 : ℝ) : EReal) = _
      rw [sqrt_coe, if_neg (lt_irrefl _), Real.sqrt_zero]; rfl
    rw [this]; exact max_eq_left lo_nonneg
  induction d using EReal.rec with
  | bot => rw [max_eq_right bot_le, h0, sqrt_bot, max_eq_left bot_le]
  | top => rw [max_eq_left le_top]
  | coe r =>
    by_cases hr : r < 0
    · rw [show max (r : EReal) 0 = 0 from max_eq_right (by exact_mod_cast hr.le), h0, sqrt_coe, if_pos hr,
        max_eq_left bot_le]
    · rw [show max (r : EReal) 0 = (r : EReal) from max_eq_left (by exact_mod_cast (not_lt.mp hr))]

theorem clipSqrt_max_zero (d : EReal) : min hi (max lo (Ideal.sqrt (max d 0))) = clipSqrt d := by
  unfold clipSqrt; rw [max_sqrt_max_zero]

/-! ## Two re-indexings of finite sums -/

/-- A sum over 1024 columns whose terms from column 1000 on vanish is the sum over the first 1000 columns. -/
theorem sum_pad {M : Type*} [AddCommMonoid M] (f : Fin 1024 → M) (hz : ∀ c : Fin 1024, 1000 ≤ c.val → f c = 0) :
    ∑ c : Fin 1024, f c = ∑ c : Fin 1000, f ⟨c.val, by have := c.isLt; omega⟩ := by
  have e : ∑ c : Fin 1024, f c = ∑ c : Fin (1000 + 24), f (Fin.cast (by norm_num) c) :=
    (Fintype.sum_equiv (finCongr (by norm_num : 1000 + 24 = 1024)) _ _ fun _ => rfl).symm
  rw [e, Fin.sum_univ_add]
  have z : ∑ i : Fin 24, f (Fin.cast (by norm_num) (Fin.natAdd 1000 i)) = 0 :=
    Finset.sum_eq_zero fun i _ => hz _ (by simp)
  rw [z, add_zero]
  rfl

/-- A sum over 32 tiles of 512 rows is the sum over the 16384 rows, tile `t`'s row `r` being row `512·t + r`. -/
theorem sum_tiles {M : Type*} [AddCommMonoid M] (g : Fin 16384 → M) :
    ∑ t : Fin 32, ∑ r : Fin 512, g ⟨512 * t.val + r.val, by have := t.isLt; have := r.isLt; omega⟩ = ∑ b : Fin 16384, g b := by
  rw [← Fintype.sum_prod_type (f := fun p : Fin 32 × Fin 512 => g ⟨512 * p.1.val + p.2.val, by have := p.1.isLt; have := p.2.isLt; omega⟩)]
  refine Fintype.sum_equiv (finProdFinEquiv.trans (finCongr (by norm_num : 32 * 512 = 16384))) _ _ fun p => ?_
  refine congrArg g (Fin.ext ?_)
  simp [finProdFinEquiv]
  omega

end Cert.CenterDist

end
-- ==== Proof.Column.lean ====
/-
  The column of 512 row sums that one grid point computes, read entry by entry over the extended reals.

  Row `r` of the column is the sum over the 1024 (padded) class columns `c` of a masked, clipped distance: the
  squared norm of the block's row `r`, plus the squared norm of center `c`, minus twice their inner product, clamped at
  zero, square-rooted, clipped into `[lo, hi]`, and replaced by zero where `c` is the row's label or a padding column.
  The accumulate step adds the column's total to the output block's one entry.
-/
import proofs.«160327_j41197326303940_1_alg».proof.Proof.Gen.KernelIdeal.Skeleton
import proofs.«160327_j41197326303940_1_alg».proof.Proof.LibColumn
import proofs.«160327_j41197326303940_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Column

open Cert.KernelIdeal Cert.KernelIdeal.Facts₀ Idealize.ShloMosaic Idealize.ShloMosaic.ValueIdx
open Cert.KernelIdeal.Gen (k0_pay1 k0_pay2 k0_pay3)
open Cert.CenterDist (lo hi two)

/-! ## Pointwise operations at an index -/

theorem sqrt_apply {s : Shape} {φ : FTy} (a : FVec Ideal s φ) (i : s.Idx) : sqrt a i = Ideal.sqrt (a i) := rfl
theorem cmpi_apply {s : Shape} {w : ℕ} (p : CmpIPredicate) (a b : IVec s w) (i : s.Idx) :
    cmpi p a b i = IntOp.cmpi p (a i) (b i) := rfl
theorem ori_apply {s : Shape} {w : ℕ} (a b : IVec s w) (i : s.Idx) : ori a b i = IntOp.ori (a i) (b i) := rfl

/-! ## The layout operations and the contractions at an index -/

/-- The row's squared norm, kept as a column and repeated across the class columns. -/
theorem rowsq_apply (x0 : FVec Ideal S512x256 .f32) (r : Fin 512) (c : Fin 1024) :
    broadcastTo S512x1024 (shapeCast S512x1 (multiReduction .add [1] S512 (mulf x0 x0) 0x00000000#32 reduces_S512x256_S512 (.inl rfl) rfl) shapeCasts_S512_S512x1) broadcasts_S512x1_S512x1024 (ix2 r c)
      = ∑ k : Fin 256, x0 (ix2 r k) * x0 (ix2 r k) := by
  refine (LibColumn.broadcastTo_a1_ab_apply _ broadcasts_S512x1_S512x1024 r c).trans ?_
  refine (LibColumn.shapeCast_a_a1_apply _ shapeCasts_S512_S512x1 r 0).trans ?_
  refine (Ideal.multiReduction_add_single (mulf x0 x0) 0x00000000#32 reduces_S512x256_S512 (.inl rfl) rfl (ix1 r)).trans ?_
  refine Finset.sum_congr rfl fun k _ => ?_
  have e : reduces_S512x256_S512.lift (ix1 r) k = ix2 r k :=
    funext fun a => Fin.ext (by match a with | ⟨0, _⟩ => rfl | ⟨1, _⟩ => rfl)
  rw [e]; rfl

/-- The centers' squared norms, one row repeated across the block's rows. -/
theorem csq_apply (x2 : FVec Ideal S1x1024 .f32) (r : Fin 512) (c : Fin 1024) :
    broadcastTo S512x1024 (shapeCast S1x1024 x2 shapeCasts_S1x1024_S1x1024) broadcasts_S1x1024_S512x1024 (ix2 r c)
      = x2 (ix2 0 c) := by
  refine (broadcastTo_1b_ab_apply _ broadcasts_S1x1024_S512x1024 r c).trans ?_
  rw [shapeCast_self]

/-- The labels, a column repeated across the class columns. -/
theorem label_apply (x3 : IVec S512x1 32) (r : Fin 512) (c : Fin 1024) :
    broadcastTo S512x1024 (shapeCast S512x1 x3 shapeCasts_S512x1_S512x1) broadcasts_S512x1_S512x1024 (ix2 r c)
      = x3 (ix2 r 0) := by
  refine (LibColumn.broadcastTo_a1_ab_apply _ broadcasts_S512x1_S512x1024 r c).trans ?_
  rw [shapeCast_self]

/-- The column number. -/
theorem iota_apply (r : Fin 512) (c : Fin 1024) :
    iota .tc S512x1024 32 [1] iota_S512x1024_d1_w32 (ix2 r c) = BitVec.ofNat 32 c.val :=
  iota_single_apply .tc S512x1024 32 1 iota_S512x1024_d1_w32 (ix2 r c)

theorem lhs_dot_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem lhs_dot_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhs_dot_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhs_dot_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The matrix product into a zero accumulator: the inner product of the block's row with the center's column (the
    change of float format is the identity over the extended reals). -/
theorem dot_apply (x0 : FVec Ideal S512x256 .f32) (x1 : FVec Ideal S256x1024 .bf16) (r : Fin 512) (c : Fin 1024) :
    matmul dot_S512x256_S256x1024_S512x1024_1_0_0_1_n_n none (truncf .bf16 x0 bitsLt_bf16_f32) (shapeCast S256x1024 x1 shapeCasts_S256x1024_S256x1024) (constant S512x1024 .f32 0x00000000#32) (ix2 r c)
      = ∑ k : Fin 256, x0 (ix2 r k) * x1 (ix2 k c) := by
  rw [shapeCast_self]
  simp only [matmul]
  rw [Ideal.matmul_constant_zero_apply, ← Equiv.sum_comp (ValueIdx.contrEquiv1 dot_S512x256_S256x1024_S512x1024_1_0_0_1_n_n 256 rfl rfl).symm]
  refine Finset.sum_congr rfl fun k _ => ?_
  have hk := ValueIdx.contrEquiv1_symm_val dot_S512x256_S256x1024_S512x1024_1_0_0_1_n_n 256 rfl rfl k
  have el : dot_S512x256_S256x1024_S512x1024_1_0_0_1_n_n.lhsIdx (ix2 r c) ((ValueIdx.contrEquiv1 dot_S512x256_S256x1024_S512x1024_1_0_0_1_n_n 256 rfl rfl).symm k) = ix2 r k := funext fun a => Fin.ext (by
    match a with
    | ⟨0, _⟩ => exact lhs_dot_0 _ _
    | ⟨1, _⟩ => exact (lhs_dot_1 _ _).trans hk)
  have er : dot_S512x256_S256x1024_S512x1024_1_0_0_1_n_n.rhsIdx (ix2 r c) ((ValueIdx.contrEquiv1 dot_S512x256_S256x1024_S512x1024_1_0_0_1_n_n 256 rfl rfl).symm k) = ix2 k c := funext fun a => Fin.ext (by
    match a with
    | ⟨0, _⟩ => exact (rhs_dot_0 _ _).trans hk
    | ⟨1, _⟩ => exact rhs_dot_1 _ _)
  rw [el, er]; rfl

/-! ## One cell, one column entry, and the accumulate step -/

/-- One masked, clipped entry of the point's 512 × 1024 tile. -/
def cell (x0 : FVec Ideal S512x256 .f32) (x1 : FVec Ideal S256x1024 .bf16) (x2 : FVec Ideal S1x1024 .f32)
    (x3 : IVec S512x1 32) (r : Fin 512) (c : Fin 1024) : EReal :=
  Scalar.select (IntOp.ori (IntOp.cmpi .eq (BitVec.ofNat 32 c.val) (x3 (ix2 r 0))) (IntOp.cmpi .sge (BitVec.ofNat 32 c.val) 1000#32))
    (Ideal.ofBits .f32 0x00000000#32)
    (min hi (max lo (Ideal.sqrt (max (((∑ k : Fin 256, x0 (ix2 r k) * x0 (ix2 r k)) + x2 (ix2 0 c))
      - two * ∑ k : Fin 256, x0 (ix2 r k) * x1 (ix2 k c)) (Ideal.ofBits .f32 0x00000000#32)))))

/-- A cell from its column number and its row's squared norm, whatever terms denote them. -/
theorem cell_of (x0 : FVec Ideal S512x256 .f32) (x1 : FVec Ideal S256x1024 .bf16) (x2 : FVec Ideal S1x1024 .f32)
    (x3 : IVec S512x1 32) (r : Fin 512) (c : Fin 1024) {A : BitVec 32} {R : EReal}
    (hA : A = BitVec.ofNat 32 c.val) (hR : R = ∑ k : Fin 256, x0 (ix2 r k) * x0 (ix2 r k)) :
    Scalar.select (IntOp.ori (IntOp.cmpi .eq A (x3 (ix2 r 0))) (IntOp.cmpi .sge A 1000#32))
      (Ideal.ofBits .f32 0x00000000#32)
      (min hi (max lo (Ideal.sqrt (max ((R + x2 (ix2 0 c)) - two * ∑ k : Fin 256, x0 (ix2 r k) * x1 (ix2 k c))
        (Ideal.ofBits .f32 0x00000000#32)))))
      = cell x0 x1 x2 x3 r c := by
  subst hA hR; rfl

/-- Row `r` of the column is the sum of the row's 1024 cells. -/
theorem pay3_apply (x0 : FVec Ideal S512x256 .f32) (x1 : FVec Ideal S256x1024 .bf16) (x2 : FVec Ideal S1x1024 .f32)
    (x3 : IVec S512x1 32) (r : Fin 512) :
    k0_pay3 (F := Ideal) x0 x1 x2 x3 (ix2 r 0) = ∑ c : Fin 1024, cell x0 x1 x2 x3 r c := by
  unfold k0_pay3
  dsimp only
  refine (LibColumn.shapeCast_a_a1_apply _ shapeCasts_S512_S512x1 r 0).trans ?_
  refine (Ideal.multiReduction_add_single _ 0x00000000#32 reduces_S512x1024_S512 (.inl rfl) rfl (ix1 r)).trans ?_
  refine Finset.sum_congr rfl fun (c : Fin 1024) _ => ?_
  have e : reduces_S512x1024_S512.lift (ix1 r) c = ix2 r c :=
    funext fun a => Fin.ext (by match a with | ⟨0, _⟩ => rfl | ⟨1, _⟩ => rfl)
  rw [e]
  simp only [select_apply, ori_apply, cmpi_apply, minimumf_apply, maximumf_apply, sqrt_apply, subf_apply, addf_apply,
    mulf_apply, broadcast_apply, csq_apply, dot_apply, label_apply]
  exact cell_of x0 x1 x2 x3 r c (iota_apply r c) (rowsq_apply x0 r c)

/-- The accumulate step: the block's entry plus the column's total. -/
theorem pay1_apply (v37 : FVec Ideal S512x1 .f32) (v40 : FVec Ideal S1x1 .f32) :
    k0_pay1 (F := Ideal) v37 v40 (ix2 0 0) = v40 (ix2 0 0) + ∑ r : Fin 512, v37 (ix2 r 0) := by
  unfold k0_pay1
  dsimp only
  rw [addf_apply, shapeCast_self]
  refine congrArg (v40 (ix2 0 0) + ·) ?_
  refine (LibColumn.shapeCast_a_a1_apply _ shapeCasts_S1_S1x1 0 0).trans ?_
  refine (Ideal.multiReduction_add_single v37 0x00000000#32 reduces_S512x1_S1 (.inl rfl) rfl (ix1 0)).trans ?_
  refine Finset.sum_congr rfl fun k _ => ?_
  have e : reduces_S512x1_S1.lift (ix1 0) k = ix2 k 0 :=
    funext fun a => Fin.ext (by match a with | ⟨0, _⟩ => rfl | ⟨1, _⟩ => rfl)
  rw [e]; rfl

/-- The block the first point stores before accumulating is zero. -/
theorem pay2_apply (i : S1x1.Idx) : k0_pay2 (F := Ideal) i = 0 := by
  show Ideal.ofBits .f32 0x00000000#32 = 0
  exact Ideal.ofBits_zero_f32

end Cert.KernelIdeal.Column

end
-- ==== Proof.Rows.lean ====
/-
  Each row of a grid point's tile, summed over the 1024 padded class columns, is the specification's sum of that sample
  row's entries over the 1000 classes.

  A padding column (1000 and beyond) is masked to zero whatever it holds.  At a class column below 1000 the block
  entries are the arguments' entries (the pad is not seen, the format change is the identity, the transpose swaps the
  coordinates), the label comparison is symmetric, and the clamp at zero before the square root is invisible after the
  clip from below.
-/
import proofs.«160327_j41197326303940_1_alg».proof.Proof.Blocks
import proofs.«160327_j41197326303940_1_alg».proof.Proof.Column
import proofs.«160327_j41197326303940_1_alg».proof.Proof.Spec

noncomputable section

namespace Cert.KernelIdeal.Rows

open Cert.KernelIdeal Cert.KernelIdeal.Gen Idealize.ShloMosaic Idealize.ShloMosaic.TcCoe Idealize.SL.Sem
open Idealize.ShloMosaic.ValueIdx Cert.KernelIdeal.Blocks Cert.KernelIdeal.Column
open Cert.CenterDist (lo hi two dist2 clipSqrt entry rowSum)

variable (m : (ℓ : Loc nD τ sig) → Buf (Elt Ideal) ℓ)

/-! ## The blocks' entries -/

theorem xblk_apply (c : Dev nD) (t : Fin cfg0.N) (r : Fin 512) (k : Fin 256) :
    xblk m c t (ix2 r k) = X m c (ix2 (rowOf t.val (lt32 t) r) k) := by
  show V m c main_arg0 (((cfg0.win 0).blk t).view.emb (ix2 r k)) = _
  rw [V_main_arg0]
  refine congrArg (X m c) (funext fun a => Fin.ext ?_)
  match a with
  | ⟨0, _⟩ => show win0_0.index t 0 * 512 + 1 * r.val = 512 * t.val + r.val; rw [(idx_facts t).1]; omega
  | ⟨1, _⟩ => show win0_0.index t 1 * 256 + 1 * k.val = k.val; rw [(idx_facts t).2.1]; omega

theorem lblk_apply (c : Dev nD) (t : Fin cfg0.N) (r : Fin 512) :
    lblk m c t (ix2 r 0) = Lb m c (ix1 (rowOf t.val (lt32 t) r)) := by
  have e : lblk m c t (ix2 r 0) = (V m c main_v6 : S16384x1.Idx → BitVec 32) (ix2 (rowOf t.val (lt32 t) r) 0) := by
    show V m c main_v6 (((cfg0.win 3).blk t).view.emb (ix2 r 0)) = _
    refine congrArg (V m c main_v6 : S16384x1.Idx → BitVec 32) (funext fun a => Fin.ext ?_)
    match a with
    | ⟨0, _⟩ => show win0_3.index t 0 * 512 + 1 * r.val = 512 * t.val + r.val; rw [(idx_facts t).2.2.2.2.2.2.1]; omega
    | ⟨1, _⟩ => show win0_3.index t 1 * 1 + 1 * 0 = 0; rw [(idx_facts t).2.2.2.2.2.2.2]
  rw [e, V_v6]
  exact LibColumn.shapeCast_a_a1_apply _ Facts₀.shapeCasts_S16384_S16384x1 _ 0

theorem cblk_apply (c : Dev nD) (t : Fin cfg0.N) (k : Fin 256) (cc : Fin 1000) :
    cblk m c t (ix2 k (⟨cc.val, by have := cc.isLt; omega⟩ : Fin 1024)) = Cn m c (ix2 cc k) := by
  have e : cblk m c t (ix2 k (⟨cc.val, by have := cc.isLt; omega⟩ : Fin 1024))
      = (V m c main_v2 : S256x1024.Idx → EReal) (ix2 k (⟨cc.val, by have := cc.isLt; omega⟩ : Fin 1024)) := by
    show V m c main_v2 (((cfg0.win 1).blk t).view.emb (ix2 k _)) = _
    refine congrArg (V m c main_v2 : S256x1024.Idx → EReal) (funext fun a => Fin.ext ?_)
    match a with
    | ⟨0, _⟩ => show win0_1.index t 0 * 256 + 1 * k.val = k.val; rw [(idx_facts t).2.2.1]; omega
    | ⟨1, _⟩ => show win0_1.index t 1 * 1024 + 1 * cc.val = cc.val; rw [(idx_facts t).2.2.2.1]; omega
  rw [e, V_v2]
  refine (transpose_ix2_apply _ Facts₀.transposes_S1024x256_S256x1024_1_0 k _).trans ?_
  exact padded_apply m c cc k

theorem nblk_apply (c : Dev nD) (t : Fin cfg0.N) (cc : Fin 1000) :
    nblk m c t (ix2 0 (⟨cc.val, by have := cc.isLt; omega⟩ : Fin 1024)) = ∑ k : Fin 256, Cn m c (ix2 cc k) * Cn m c (ix2 cc k) := by
  have e : nblk m c t (ix2 0 (⟨cc.val, by have := cc.isLt; omega⟩ : Fin 1024))
      = (V m c main_v5 : S1x1024.Idx → EReal) (ix2 0 (⟨cc.val, by have := cc.isLt; omega⟩ : Fin 1024)) := by
    show V m c main_v5 (((cfg0.win 2).blk t).view.emb (ix2 0 _)) = _
    refine congrArg (V m c main_v5 : S1x1024.Idx → EReal) (funext fun a => Fin.ext ?_)
    match a with
    | ⟨0, _⟩ => show win0_2.index t 0 * 1 + 1 * 0 = 0; rw [(idx_facts t).2.2.2.2.1]
    | ⟨1, _⟩ => show win0_2.index t 1 * 1024 + 1 * cc.val = cc.val; rw [(idx_facts t).2.2.2.2.2.1]; omega
  rw [e, V_v5]
  refine (shapeCast_a_1a_apply _ Facts₀.shapeCasts_S1024_S1x1024 0 _).trans ?_
  simp only [Host.reduceAdd, Ideal.hostReduceAdd_def]
  rw [Ideal.hostReduceAdd_single Facts₀.reducesTo_S1024x256_S1024_d1 (by decide)]
  refine (congrArg (· + _) (show constant (F := Ideal) S_ .f32 0x00000000#32 _ = 0 from Ideal.ofBits_zero_f32)).trans ?_
  rw [zero_add]
  refine Finset.sum_congr rfl fun (k : Fin 256) _ => ?_
  have ek : (Shape.Reduces.lift (by decide : S1024x256.Reduces [1] S1024) (ix1 (⟨cc.val, by have := cc.isLt; omega⟩ : Fin 1024)) k)
      = ix2 (⟨cc.val, by have := cc.isLt; omega⟩ : Fin 1024) k :=
    funext fun a => Fin.ext (by match a with | ⟨0, _⟩ => rfl | ⟨1, _⟩ => rfl)
  rw [ek, mulf_apply, padded_apply]

/-! ## Masks -/

theorem ge_1000 : ∀ c : Fin 1024, 1000 ≤ c.val → IntOp.cmpi .sge (BitVec.ofNat 32 c.val) 1000#32 = 1#1 := by decide +kernel
theorem lt_1000 : ∀ c : Fin 1024, c.val < 1000 → IntOp.cmpi .sge (BitVec.ofNat 32 c.val) 1000#32 = 0#1 := by decide +kernel

theorem ori_one (x : BitVec 1) : IntOp.ori x 1#1 = 1#1 := by
  by_cases h : x = 1#1
  · subst h; rfl
  · rw [eq_zero_of_ne_one h]; rfl
theorem ori_zero (x : BitVec 1) : IntOp.ori x 0#1 = x := by
  by_cases h : x = 1#1
  · subst h; rfl
  · rw [eq_zero_of_ne_one h]; rfl

theorem cmpi_eq_comm (x y : BitVec 32) : IntOp.cmpi .eq x y = IntOp.cmpi .eq y x := by
  have e : (x == y) = (y == x) := by
    by_cases h : x = y
    · subst h; rfl
    · have h' : ¬y = x := fun e => h e.symm
      rw [beq_eq_false_iff_ne.mpr h, beq_eq_false_iff_ne.mpr h']
  unfold IntOp.cmpi
  exact congrArg BitVec.ofBool e

/-! ## A row's 1024 cells -/

theorem cell_pad (c : Dev nD) (t : Fin cfg0.N) (r : Fin 512) (cc : Fin 1024) (h : 1000 ≤ cc.val) :
    cell (xblk m c t) (cblk m c t) (nblk m c t) (lblk m c t) r cc = 0 := by
  unfold cell
  rw [ge_1000 cc h, ori_one, select_one]
  exact Ideal.ofBits_zero_f32

theorem cell_class (c : Dev nD) (t : Fin cfg0.N) (r : Fin 512) (cc : Fin 1000) :
    cell (xblk m c t) (cblk m c t) (nblk m c t) (lblk m c t) r (⟨cc.val, by have := cc.isLt; omega⟩ : Fin 1024)
      = entry (X m c) (Cn m c) (Lb m c) (rowOf t.val (lt32 t) r) cc := by
  unfold cell entry dist2
  rw [lt_1000 _ cc.isLt, ori_zero, cmpi_eq_comm, lblk_apply, nblk_apply, Ideal.ofBits_zero_f32]
  simp only [xblk_apply, cblk_apply]
  rw [CenterDist.clipSqrt_max_zero]

theorem row_sum (c : Dev nD) (t : Fin cfg0.N) (r : Fin 512) :
    ∑ cc : Fin 1024, cell (xblk m c t) (cblk m c t) (nblk m c t) (lblk m c t) r cc
      = rowSum (X m c) (Cn m c) (Lb m c) (rowOf t.val (lt32 t) r) := by
  rw [CenterDist.sum_pad _ fun cc h => cell_pad m c t r cc h]
  exact Finset.sum_congr rfl fun cc _ => cell_class m c t r cc

end Cert.KernelIdeal.Rows

end
-- ==== Proof.Result.lean ====
/-
  The kernel's result.

  After point `n` the output block's entry is the sum of the first `n + 1` tile totals; the block is written back once,
  after the last point; the host then reshapes the one entry to a scalar and divides by the number of entries summed
  per class-complement, `16384 · 999`.  So the program returns the specification's total divided by that constant.
-/
import proofs.«160327_j41197326303940_1_alg».proof.Proof.Acc
import proofs.«160327_j41197326303940_1_alg».proof.Proof.Rows
import proofs.«160327_j41197326303940_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Blocks
open Cert.CenterDist (rowSum total)

variable (m : (ℓ : Loc nD τ sig) → Buf (Elt Ideal) ℓ) (ρ : Dev nD → PrngReg)

/-- The total of tile `t`'s 512 row sums (zero beyond the grid). -/
def tileSum (c : Dev nD) (t : ℕ) : EReal :=
  if h : t < 32 then ∑ r : Fin 512, rowSum (X m c) (Cn m c) (Lb m c) (rowOf t h r) else 0

/-- The column a point computes sums to its tile's total. -/
theorem column_total (c : Dev nD) (t : Fin cfg0.N) :
    ∑ r : Fin 512, Acc.column m c t (ix2 r 0) = tileSum m c t.val := by
  unfold tileSum
  rw [dif_pos (lt32 t)]
  refine Finset.sum_congr rfl fun r _ => ?_
  exact (Column.pay3_apply (xblk m c t) (cblk m c t) (nblk m c t) (lblk m c t) r).trans (Rows.row_sum m c t r)

/-- The block's entry after point `n`: the first `n + 1` tile totals, summed. -/
theorem running_apply (c : Dev nD) : ∀ (n : ℕ) (h : n < cfg0.N),
    Acc.running m c n h (ix2 0 0) = ∑ t ∈ Finset.range (n + 1), tileSum m c t
  | 0, h => by
    refine (Column.pay1_apply (Acc.column m c ⟨0, h⟩) (k0_pay2 (F := Ideal))).trans ?_
    rw [Column.pay2_apply, zero_add, column_total, Finset.sum_range_one]
  | n + 1, h => by
    refine (Column.pay1_apply (Acc.column m c ⟨n + 1, h⟩) (Acc.running m c n (Nat.lt_of_succ_lt h))).trans ?_
    rw [running_apply c n, column_total, Finset.sum_range_succ _ (n + 1)]

/-- All 32 tile totals sum to the specification's total. -/
theorem sum_tileSum (c : Dev nD) :
    ∑ t ∈ Finset.range 32, tileSum m c t = total (X m c) (Cn m c) (Lb m c) := by
  rw [Finset.sum_range]
  unfold total
  rw [← CenterDist.sum_tiles]
  refine Finset.sum_congr rfl fun t _ => ?_
  unfold tileSum
  rw [dif_pos t.isLt]
  rfl

/-! ## The write-back -/

theorem lastLt : 31 < cfg0.N := by rw [show cfg0.N = 32 from N_0]; decide
/-- The last grid point. -/
abbrev tl : Fin cfg0.N := ⟨31, lastLt⟩

/-- The output array after the run: the block's contents after the last point. -/
abbrev result (c : Dev nD) : Buf (Elt Ideal) ((c : Thread nD τ).loc main_v7) := Acc.running m c 31 lastLt

theorem w4_facts : ∀ t : Fin cfg0.N, win0_4.index t (0 : Fin 2) = 0 ∧ win0_4.index t (1 : Fin 2) = 0
    ∧ win0_4.xsize (grid0.coords t) (0 : Fin 2) = 1 ∧ win0_4.xsize (grid0.coords t) (1 : Fin 2) = 1 :=
  (by decide +kernel : ∀ t : Fin grid0.N, win0_4.index t (0 : Fin 2) = 0 ∧ win0_4.index t (1 : Fin 2) = 0
    ∧ win0_4.xsize (grid0.coords t) (0 : Fin 2) = 1 ∧ win0_4.xsize (grid0.coords t) (1 : Fin 2) = 1)

/-- The one write-back, after the last point, writes the block, which is the whole 1 × 1 array. -/
theorem flushed_eq (c : Dev nD) (t : Fin cfg0.N) (hf : (cfg0.win 4).flush t = true) :
    (dats m 0 c).flushed 4 t = ((cfg0.win 4).blk t).view.read (Elt Ideal) (result m c) := by
  have h31 : t.val = 31 := by have := (flush0_4 t).mp hf; have := lt32 t; omega
  obtain rfl : t = tl := Fin.ext h31
  show (cfg0.win 4).cut (grid0.coords tl) ((dats m 0 c).after 4 tl) = _
  rw [after0_4, Acc.outsAt_eq]
  have hz' : (fun a => win0_4.index tl a * main_v7.ty.shape.size a) = fun _ => 0 := funext fun a => by
    match a with
    | ⟨0, _⟩ => show win0_4.index tl 0 * 1 = 0; rw [(w4_facts tl).1]
    | ⟨1, _⟩ => show win0_4.index tl 1 * 1 = 0; rw [(w4_facts tl).2.1]
  exact (Memref.read_access_unit_zero (Elt Ideal) main_v7 hz' (fun a => by rw [congrFun hz' a]; simp) (result m c)).symm

theorem final (c : Dev nD) : (dats m 0 c).arrAt 4 cfg0.N = result m c :=
  (dats m 0 c).arrAt_eq_of_cover 4 (result m c) (flushed_eq m c) fun i =>
    ⟨tl, (flush0_4 tl).mpr rfl, by
      show i ∈ ((View.whole main_v7).slice (win0_4.rect tl)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tl 0 * win0_4.size 0 ≤ (i 0 : Nat) ∧ (i 0 : Nat) < win0_4.index tl 0 * win0_4.size 0 + win0_4.xsize (grid0.coords tl) 0
        rw [(w4_facts tl).1, (w4_facts tl).2.2.1]; omega
      | ⟨1, _⟩ =>
        show win0_4.index tl 1 * win0_4.size 1 ≤ (i 1 : Nat) ∧ (i 1 : Nat) < win0_4.index tl 1 * win0_4.size 1 + win0_4.xsize (grid0.coords tl) 1
        rw [(w4_facts tl).2.1, (w4_facts tl).2.2.2]; omega⟩

/-! ## The host tail -/

theorem tail_eq (c : Dev nD) : Pipeline.afterTail₀ cfgs (dats m) 0 (V0 m) [hostOps1] c main_v9
    = Host.divf (F := Ideal) (shapeCast S_ (result m c) Facts₀.shapeCasts_S1x1_S_) (constant (F := Ideal) S_ .f32 0x4B79C000#32) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.tc.devRef main_v7)
      = result m c := (Pipeline.withArrays_arr spec0 launch0.win.arr_inj c _ _ 4).trans (final m c)
  rw [hw]
  rfl

/-- The one index of the 1 × 1 array. -/
theorem idx11 (a : S1x1.Idx) : a = ix2 0 0 := by
  have h0 : (a 0 : ℕ) < 1 := (a 0).isLt
  have h1 : (a 1 : ℕ) < 1 := (a 1).isLt
  funext d
  match d with
  | ⟨0, _⟩ => exact Fin.ext (by show (a 0 : ℕ) = 0; omega)
  | ⟨1, _⟩ => exact Fin.ext (by show (a 1 : ℕ) = 0; omega)

/-- The value the program returns: the specification's total divided by the constant `16384 · 999`. -/
def value (c : Dev nD) : Buf (Elt Ideal) ((c : Thread nD τ).loc main_v9) :=
  fun _ => Ideal.div (total (X m c) (Cn m c) (Lb m c)) (Ideal.ofBits .f32 0x4B79C000#32)

theorem tail_value (c : Dev nD) :
    Host.divf (F := Ideal) (shapeCast S_ (result m c) Facts₀.shapeCasts_S1x1_S_) (constant (F := Ideal) S_ .f32 0x4B79C000#32)
      = value m c := by
  funext i
  have e : shapeCast S_ (result m c) Facts₀.shapeCasts_S1x1_S_ i = result m c (ix2 0 0) := by
    unfold shapeCast
    exact congrArg (result m c) (idx11 _)
  show Ideal.div (shapeCast S_ (result m c) Facts₀.shapeCasts_S1x1_S_ i) (Ideal.ofBits .f32 0x4B79C000#32) = _
  rw [e, show result m c (ix2 0 0) = ∑ t ∈ Finset.range 32, tileSum m c t from running_apply m c 31 lastLt,
    sum_tileSum]
  rfl

/-! ## The run -/

/-- Every weakly fair execution of the program ends with its result at `value` and its arguments unchanged. -/
theorem run : θ_run defs (onTc (τ := τ) (main (F := Ideal))) ⟨m, fun _ => 0, ρ⟩ fun r => ∀ c : Dev nD,
      r.2.mem ((c.tc : Thread nD τ).loc main_v9) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans
        ((tail_eq m c).trans (tail_value m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference program's result is the specification's total divided by `16384 · 999`.

  Its masked distance matrix, read at sample row `b` and class `c`, is the specification's entry: the two squared norms and
  the inner product are the sums the host computes from a zero initial value, the label is compared with the class number,
  and the clip is the same two bounds in the same order.  The final sum over both axes, from a zero initial value, is the
  double sum over rows and classes.
-/
import proofs.«160327_j41197326303940_1_alg».proof.Proof.Gen.ReferenceIdeal.Read
import proofs.«160327_j41197326303940_1_alg».proof.Proof.Spec

noncomputable section

namespace Cert.ReferenceIdeal.RefValue

open Cert.ReferenceIdeal Cert.ReferenceIdeal.Read Idealize.ShloMosaic Idealize.ShloMosaic.ValueIdx
open Cert.CenterDist (lo hi two dist2 clipSqrt entry rowSum total)

variable (x0 : (⟨S16384x256, .f32⟩ : BufTy).Contents (Elt Ideal)) (x1 : (⟨S1000x256, .f32⟩ : BufTy).Contents (Elt Ideal))
  (x2 : (⟨S16384, .i32⟩ : BufTy).Contents (Elt Ideal))

/-- The sample row's squared norm, broadcast over the classes. -/
theorem xsq_apply (b : Fin 16384) (c : Fin 1000) :
    val_main_v6 (F := Ideal) x0 (ix2 b c) = ∑ k : Fin 256, x0 (ix2 b k) * x0 (ix2 b k) := by
  rw [val_main_v6_apply, val_main_v2_apply, val_main_v1_apply,
    show val_main_cst (F := Ideal) _ = 0 from Ideal.ofBits_zero_f32, zero_add]
  refine Finset.sum_congr rfl fun (k : Fin 256) _ => ?_
  rw [val_main_v0_apply]
  have e : idx_main_v1 (idx_main_v2 (idx_main_v6 (ix2 b c))) k = ix2 b k :=
    funext fun a => Fin.ext (by match a with | ⟨0, _⟩ => rfl | ⟨1, _⟩ => rfl)
  rw [e]; rfl

/-- The class center's squared norm, broadcast over the sample rows. -/
theorem csq_apply (b : Fin 16384) (c : Fin 1000) :
    val_main_v7 (F := Ideal) x1 (ix2 b c) = ∑ k : Fin 256, x1 (ix2 c k) * x1 (ix2 c k) := by
  rw [val_main_v7_apply, val_main_v5_apply, val_main_v4_apply,
    show val_main_cst_0 (F := Ideal) _ = 0 from Ideal.ofBits_zero_f32, zero_add]
  refine Finset.sum_congr rfl fun (k : Fin 256) _ => ?_
  rw [val_main_v3_apply]
  have e : idx_main_v4 (idx_main_v5 (idx_main_v7 (ix2 b c))) k = ix2 c k :=
    funext fun a => Fin.ext (by match a with | ⟨0, _⟩ => rfl | ⟨1, _⟩ => rfl)
  rw [e]; rfl

/-- The inner product of the sample row and the class center. -/
theorem dot_apply (b : Fin 16384) (c : Fin 1000) :
    val_main_v9 (F := Ideal) x0 x1 (ix2 b c) = ∑ k : Fin 256, x0 (ix2 b k) * x1 (ix2 c k) := by
  rw [val_main_v9_apply]
  refine Finset.sum_congr rfl fun (k : Fin 256) _ => ?_
  have el : lidx_main_v9 (ix2 b c) k = ix2 b k :=
    funext fun a => Fin.ext (by match a with | ⟨0, _⟩ => rfl | ⟨1, _⟩ => rfl)
  have er : ridx_main_v9 (ix2 b c) k = ix2 c k :=
    funext fun a => Fin.ext (by match a with | ⟨0, _⟩ => rfl | ⟨1, _⟩ => rfl)
  rw [el, er]

/-- The mask: the sample's label against the class number. -/
theorem mask_apply (b : Fin 16384) (c : Fin 1000) :
    val_main_v18 (F := Ideal) x2 (ix2 b c) = IntOp.cmpi .eq (x2 (ix1 b)) (BitVec.ofNat 32 c.val) := by
  rw [val_main_v18_apply, val_main_v16_apply, val_main_v13_apply, val_main_v17_apply, val_main_v15_apply,
    val_main_v14_apply]
  have e1 : idx_main_v13 (idx_main_v16 (ix2 b c)) = ix1 b :=
    funext fun a => Fin.ext (by match a with | ⟨0, _⟩ => rfl)
  rw [e1]

/-- One entry of the reference's masked distance matrix is the specification's. -/
theorem entry_apply (b : Fin 16384) (c : Fin 1000) :
    val_main_v21 (F := Ideal) x0 x1 x2 (ix2 b c) = entry x0 x1 x2 b c := by
  rw [val_main_v21_apply, mask_apply, val_main_call1_v1_apply, val_main_call1_v0_apply, val_main_cst_4_apply,
    val_main_v20_apply, val_main_call0_v4_apply, val_main_call0_v3_apply, val_main_cst_3_apply,
    val_main_call0_v2_apply, val_main_call0_v1_apply, val_main_call0_v0_apply, val_main_cst_2_apply,
    val_main_v19_apply, val_main_v12_apply, val_main_v8_apply, xsq_apply, csq_apply, val_main_v11_apply,
    val_main_v10_apply, val_main_cst_1_apply, dot_apply]
  unfold entry clipSqrt dist2
  simp only [Ideal.ofBits_def, Ideal.minimumf_def, Ideal.maximumf_def, Ideal.hostUnary_sqrt_def, Ideal.subf_def,
    Ideal.addf_def, Ideal.mulf_def, Ideal.ofBits_zero_f32]

/-- The reference's result. -/
theorem result_eq : val_main_v23 (F := Ideal) x0 x1 x2
    = fun _ => Ideal.div (total x0 x1 x2) (Ideal.ofBits .f32 0x4B79C000#32) := by
  funext i
  rw [val_main_v23_apply, val_main_v22_apply, val_main_cst_6_apply,
    show val_main_cst_5 (F := Ideal) _ = 0 from Ideal.ofBits_zero_f32, zero_add, sum_idx2]
  simp only [entry_apply]
  rfl

end Cert.ReferenceIdeal.RefValue

end
-- ==== Proof.lean ====
/-
  The mean clipped distance from every sample to the centers of the classes other than its own.

  Both programs form, for sample row `b` and class `c`, the expanded squared distance
  `‖x_b‖² + ‖c_c‖² − 2·⟨x_b, c_c⟩`, take its square root, clip it into `[lo, hi]`, put zero at the sample's own class,
  sum everything, and divide by `16384 · 999`.  The kernel walks the samples in 32 tiles of 512 rows against the
  centers padded to 1024 classes; each tile adds the total of its masked 512 × 1024 block to a one-entry accumulator
  that the first tile resets, and the padded class columns are masked to zero.  Over the extended reals the tile sums
  regroup into the reference's one double sum (sums of extended reals commute and associate), the padding contributes
  zeros, and the kernel's clamp of the squared distance at zero before the square root is invisible after the clip from
  below by the nonnegative `lo`: where the squared distance is negative the square root is `⊥` and both sides are lifted
  to `lo`.  No finiteness of the inputs is used.

  The frames of the two kernel programs are the generated ones; the reference's frame is its generated run with the
  result dropped; the idealization rewrote nothing.
-/
import proofs.«160327_j41197326303940_1_alg».proof.Defs
import proofs.«160327_j41197326303940_1_alg».proof.Proof.Gen.Kernel
import proofs.«160327_j41197326303940_1_alg».proof.Proof.Gen.Kernel.Skeleton
import proofs.«160327_j41197326303940_1_alg».proof.Proof.Gen.Kernel.Launch
import proofs.«160327_j41197326303940_1_alg».proof.Proof.Gen.Kernel.Points
import proofs.«160327_j41197326303940_1_alg».proof.Proof.Gen.Kernel.Frame
import proofs.«160327_j41197326303940_1_alg».proof.Proof.Gen.KernelIdeal
import proofs.«160327_j41197326303940_1_alg».proof.Proof.Gen.KernelIdeal.Skeleton
import proofs.«160327_j41197326303940_1_alg».proof.Proof.Gen.KernelIdeal.Launch
import proofs.«160327_j41197326303940_1_alg».proof.Proof.Gen.KernelIdeal.Points
import proofs.«160327_j41197326303940_1_alg».proof.Proof.Gen.KernelIdeal.Frame
import proofs.«160327_j41197326303940_1_alg».proof.Proof.Gen.ReferenceIdeal
import proofs.«160327_j41197326303940_1_alg».proof.Proof.Gen.Pre_finite_inputs
import proofs.«160327_j41197326303940_1_alg».proof.Proof.Gen.ReferenceIdeal.Run
import proofs.«160327_j41197326303940_1_alg».proof.Proof.Gen.ReferenceIdeal.Read
import proofs.«160327_j41197326303940_1_alg».proof.Proof.Result
import proofs.«160327_j41197326303940_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end at the specification's total divided by `16384 · 999`, of arguments that agree. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq _ _ _).trans ?_
  rw [Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
